-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S2x524288 : Shape := ⟨2, ![2, 524288]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : FVec F S16384x2 .f32) (main_arg1 : IVec S2x524288 32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  main_v3
-- ==== Kernel.lean ====
abbrev S16384x2 : Shape := ⟨2, ![16384, 2]⟩
abbrev S2x524288 : Shape := ⟨2, ![2, 524288]⟩
abbrev S16384x1 : Shape := ⟨2, ![16384, 1]⟩
abbrev S16384 : Shape := ⟨1, ![16384]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S1x16384 : Shape := ⟨2, ![1, 16384]⟩
abbrev S1x1 : Shape := ⟨2, ![1, 1]⟩
abbrev S2048x1 : Shape := ⟨2, ![2048, 1]⟩
abbrev S1x1024 : Shape := ⟨2, ![1, 1024]⟩
abbrev S2048x1024 : Shape := ⟨2, ![2048, 1024]⟩
abbrev S1x2048x1024 : Shape := ⟨3, ![1, 2048, 1024]⟩
abbrev S1 : Shape := ⟨1, ![1]⟩
abbrev S1x1x1 : Shape := ⟨3, ![1, 1, 1]⟩

abbrev nBuf : Space → Nat
  | .hbm => 36
  | .vmem => 8
  | .smem => 0
  | _ => 0

abbrev bufTy : (tb : Table) → Fin (tcTables nBuf tb) → BufTy
  | .hbm, ⟨0, _⟩ => ⟨S16384x2, .f32⟩
  | .hbm, ⟨1, _⟩ => ⟨S2x524288, .i32⟩
  | .hbm, ⟨2, _⟩ => ⟨S16384x1, .f32⟩
  | .hbm, ⟨3, _⟩ => ⟨S16384, .f32⟩
  | .hbm, ⟨4, _⟩ => ⟨S16384x1, .f32⟩
  | .hbm, ⟨5, _⟩ => ⟨S16384, .f32⟩
  | .hbm, ⟨6, _⟩ => ⟨S16384, .f32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288, .f32⟩
  | .hbm, ⟨20, _⟩ => ⟨S_, .f32⟩
  | .hbm, ⟨21, _⟩ => ⟨S16384, .f32⟩
  | .hbm, ⟨22, _⟩ => ⟨S524288x1, .i32⟩
  | .hbm, ⟨23, _⟩ => ⟨S16384, .f32⟩
  | .hbm, ⟨24, _⟩ => ⟨S_, .f32⟩
  | .hbm, ⟨25, _⟩ => ⟨S524288, .f32⟩
  | .hbm, ⟨26, _⟩ => ⟨S_, .f32⟩
  | .hbm, ⟨27, _⟩ => ⟨S16384, .f32⟩
  | .hbm, ⟨28, _⟩ => ⟨S524288x1, .i32⟩
  | .hbm, ⟨29, _⟩ => ⟨S16384, .f32⟩
  | .hbm, ⟨30, _⟩ => ⟨S16384x1, .f32⟩
  | .hbm, ⟨31, _⟩ => ⟨S1x16384, .f32⟩
  | .hbm, ⟨32, _⟩ => ⟨S1x16384, .f32⟩
  | .hbm, ⟨33, _⟩ => ⟨S1x1, .f32⟩
  | .hbm, ⟨34, _⟩ => ⟨S_, .f32⟩
  | .hbm, ⟨35, _⟩ => ⟨S_, .f32⟩
  | .local _ .vmem, ⟨0, _⟩ => ⟨S2048x1, .f32⟩
  | .local _ .vmem, ⟨1, _⟩ => ⟨S2048x1, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1x1, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg0 : BitVec 32 := BitVec.ofNat 32 (i 0).val
  let c7_i32 : BitVec 32 := 7#32
  let v29 : BitVec 1 := Scalar.cmpi .eq arg0 c7_i32
  let arg1 : BitVec 32 := BitVec.ofNat 32 (i 1).val
  let c15_i32 : BitVec 32 := 15#32
  let v30 : BitVec 1 := Scalar.cmpi .eq arg1 c15_i32
  let v31 : BitVec 1 := Scalar.andi v29 v30
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  shapeCasts_S2048x1024_S1x2048x1024 : S2048x1024.ShapeCasts S1x2048x1024
  reduces_S1x2048x1024_S1 : S1x2048x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  gather_S16384_S524288x1_S524288_n_0_n_n_0_1_1_wf : GatherDims.WF S16384 S524288x1 S524288 [] [0] [] [0] [] 1 ![1]
  scatter_S16384_S524288x1_S524288_n_0_0_1_wf : ScatterDims.WF S16384 S524288x1 S524288 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S16384x1.size a
  hwx0_0 : ∀ i : grid0.Coords, EltTy.bits .f32 = 32 ∨ (Rect.block (s := S16384x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf

abbrev win0_0 : Pipeline.Window sig grid0 :=
  Pipeline.Window.ofSpec (Memref.whole main_v23) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x2 : Shape := ⟨2, ![16384, 2]⟩
abbrev S2x524288 : Shape := ⟨2, ![2, 524288]⟩
abbrev S16384x1 : Shape := ⟨2, ![16384, 1]⟩
abbrev S16384 : Shape := ⟨1, ![16384]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S1x16384 : Shape := ⟨2, ![1, 16384]⟩
abbrev S16384x16384 : Shape := ⟨2, ![16384, 16384]⟩

abbrev nBuf : Space → Nat
  | .hbm => 47
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S2x524288, .i32⟩
  | .hbm, ⟨2, _⟩ => ⟨S16384x1, .f32⟩
  | .hbm, ⟨3, _⟩ => ⟨S16384, .f32⟩
  | .hbm, ⟨4, _⟩ => ⟨S16384x1, .f32⟩
  | .hbm, ⟨5, _⟩ => ⟨S16384, .f32⟩
  | .hbm, ⟨6, _⟩ => ⟨S16384, .f32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288, .f32⟩
  | .hbm, ⟨20, _⟩ => ⟨S_, .f32⟩
  | .hbm, ⟨21, _⟩ => ⟨S16384, .f32⟩
  | .hbm, ⟨22, _⟩ => ⟨S524288x1, .i32⟩
  | .hbm, ⟨23, _⟩ => ⟨S16384, .f32⟩
  | .hbm, ⟨24, _⟩ => ⟨S_, .f32⟩
  | .hbm, ⟨25, _⟩ => ⟨S524288, .f32⟩
  | .hbm, ⟨26, _⟩ => ⟨S_, .f32⟩
  | .hbm, ⟨27, _⟩ => ⟨S16384, .f32⟩
  | .hbm, ⟨28, _⟩ => ⟨S524288x1, .i32⟩
  | .hbm, ⟨29, _⟩ => ⟨S16384, .f32⟩
  | .hbm, ⟨30, _⟩ => ⟨S1x16384, .f32⟩
  | .hbm, ⟨31, _⟩ => ⟨S16384x1, .f32⟩
  | .hbm, ⟨32, _⟩ => ⟨S1x16384, .f32⟩
  | .hbm, ⟨33, _⟩ => ⟨S16384x16384, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S_, .f32⟩
  | .hbm, ⟨39, _⟩ => ⟨S16384x16384, .f32⟩
  | .hbm, ⟨40, _⟩ => ⟨S16384x16384, .f32⟩
  | .hbm, ⟨41, _⟩ => ⟨S16384x16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384 : S_.BroadcastsInDim S16384 (![] : Fin 0 → Fin S16384.rank)
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  h_S_ : 0 < S_.numel
  gather_S16384_S524288x1_S524288_n_0_n_n_0_1_1_wf : GatherDims.WF S16384 S524288x1 S524288 [] [0] [] [0] [] 1 ![1]
  scatter_S16384_S524288x1_S524288_n_0_0_1_wf : ScatterDims.WF S16384 S524288x1 S524288 [] [0] [0] 1

variable [Facts₀]

def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf

class Facts : Prop extends Facts₀ where

variable [Facts]
-- ==== Proof.Entry.lean ====
/-
  One entry of the implicit matrix, and the column broadcast.

  Both programs form, for a row weight `w`, a column sum `s` and a column degree `d`, the entry
  `|c · (s - w · d)|` with the same scale `c` (the single-precision word nearest to 0.05, read as the dyadic
  rational it denotes; the word is the same on both sides, so it is never evaluated). On the extended reals the
  absolute value is `max x (-x)`.
-/
import Idealize.ShloMosaic.PureOps.Ideal
import Idealize.ShloMosaic.Lib.ValueIdx
import Idealize.ShloMosaic.Lib.Pipeline.Value

open Idealize.ShloMosaic Idealize.ShloMosaic.ValueIdx

namespace Cert.Entry

/-- The scale both programs multiply by. -/
noncomputable abbrev scale : EReal := Ideal.ofBits .f32 0x3D4CCCCD#32

/-- The number of entries, 2^28, both programs divide by. -/
noncomputable abbrev count : EReal := Ideal.ofBits .f32 0x4D800000#32

/-- The entry `|c · (s - w · d)|` of the matrix at a row of weight `w` and a column of sum `s` and degree `d`. -/
noncomputable def cell (w s d : EReal) : EReal := max (scale * (s - w * d)) (-(scale * (s - w * d)))

/-- A one-axis array read at a natural position (zero past its end; positions past the end are never used). -/
noncomputable def at1 (x : (⟨1, ![16384]⟩ : Shape).Idx → EReal) (a : ℕ) : EReal :=
  if h : a < 16384 then x (ix1 ⟨a, h⟩) else 0

theorem at1_of_lt (x : (⟨1, ![16384]⟩ : Shape).Idx → EReal) (a : ℕ) (h : a < 16384) : at1 x a = x (ix1 ⟨a, h⟩) :=
  dif_pos h

/-- The matrix entry at row `a` and column `b`, from the row weights `W`, the column sums `S` and degrees `D`. -/
noncomputable def entry (W S D : (⟨1, ![16384]⟩ : Shape).Idx → EReal) (a b : ℕ) : EReal :=
  cell (at1 W a) (at1 S b) (at1 D b)

/-- The sum of the entries of tile `n` (row block `n / 16` of 2048 rows, column block `n % 16` of 1024 columns). -/
noncomputable def tileSum (W S D : (⟨1, ![16384]⟩ : Shape).Idx → EReal) (n : ℕ) : EReal :=
  ∑ r : Fin 2048, ∑ q : Fin 1024, entry W S D (2048 * (n / 16) + r.val) (1024 * (n % 16) + q.val)

/-- The mean of the entries, in absolute value: what both programs return. -/
noncomputable def meanAbs (W S D : (⟨1, ![16384]⟩ : Shape).Idx → EReal) : EReal :=
  let q := Ideal.div (∑ a : Fin 16384, ∑ b : Fin 16384, entry W S D a.val b.val) count
  max q (-q)

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Entry
-- ==== Proof.Blocks.lean ====
/-
  The three input arrays of the region and their blocks.

  Before the region the host forms the row weights `w = V[:,0] + V[:,1]`, the column sums `s` (a scatter-add
  of the gathered weights by destination) and the column degrees `d` (a scatter-add of ones by destination),
  and hands the kernel `w` as a column `[16384, 1]` and `s`, `d` as rows `[1, 16384]`. At grid point `t`
  (row block `t / 16`, column block `t % 16`) the kernel's blocks are rows `2048·(t/16) …` of the column
  and columns `1024·(t%16) …` of the two rows.
-/
import proofs.«172674_j88888643158594_1_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]

/-! ## The host's three vectors, as functions of the two arguments -/

/-- The row weights: the sum of the two columns of the first argument. -/
def wTerm (x0 : (⟨S16384x2, .f32⟩ : BufTy).Contents (Elt F)) : (⟨S16384, .f32⟩ : BufTy).Contents (Elt F) :=
  addf (shapeCast _ (extractStridedSlice S16384x1 ![0, 0] x0 slices_S16384x2_S16384x1_0_0) shapeCasts_S16384x1_S16384)
    (shapeCast _ (extractStridedSlice S16384x1 ![0, 1] x0 slices_S16384x2_S16384x1_0_1) shapeCasts_S16384x1_S16384)

/-- The source indices (row 0 of the second argument), a negative one wrapped by the length. -/
def srcTerm (x1 : (⟨S2x524288, .i32⟩ : BufTy).Contents (Elt F)) : (⟨S524288x1, .i32⟩ : BufTy).Contents (Elt F) :=
  broadcastInDim S524288x1 ![0] bcast_S524288_S524288x1_0
    (select (cmpi .slt (shapeCast _ (extractStridedSlice S1x524288 ![0, 0] x1 slices_S2x524288_S1x524288_0_0) shapeCasts_S1x524288_S524288)
        (broadcastInDim S524288 ![] bcast_S_S524288 (constantI S_ 32 0#32)))
      (addi (shapeCast _ (extractStridedSlice S1x524288 ![0, 0] x1 slices_S2x524288_S1x524288_0_0) shapeCasts_S1x524288_S524288)
        (broadcastInDim S524288 ![] bcast_S_S524288 (constantI S_ 32 16384#32)))
      (shapeCast _ (extractStridedSlice S1x524288 ![0, 0] x1 slices_S2x524288_S1x524288_0_0) shapeCasts_S1x524288_S524288))

/-- The destination indices (row 1 of the second argument). -/
def dstTerm (x1 : (⟨S2x524288, .i32⟩ : BufTy).Contents (Elt F)) : (⟨S524288x1, .i32⟩ : BufTy).Contents (Elt F) :=
  broadcastInDim S524288x1 ![0] bcast_S524288_S524288x1_0
    (shapeCast _ (extractStridedSlice S1x524288 ![1, 0] x1 slices_S2x524288_S1x524288_1_0) shapeCasts_S1x524288_S524288)

/-- The column sums: the gathered source weights scatter-added by destination into zeros. -/
def sTerm (x0 : (⟨S16384x2, .f32⟩ : BufTy).Contents (Elt F)) (x1 : (⟨S2x524288, .i32⟩ : BufTy).Contents (Elt F)) :
    (⟨S16384, .f32⟩ : BufTy).Contents (Elt F) :=
  Host.scatterAdd scatter_S16384_S524288x1_S524288_n_0_0_1
    (broadcastInDim S16384 ![] bcast_S_S16384 (constant S_ .f32 0x00000000#32)) (dstTerm x1)
    (Host.gather gather_S16384_S524288x1_S524288_n_0_n_n_0_1_1 (wTerm x0) (srcTerm x1))

/-- The column degrees: ones scatter-added by destination into zeros. -/
def dTerm (x1 : (⟨S2x524288, .i32⟩ : BufTy).Contents (Elt F)) : (⟨S16384, .f32⟩ : BufTy).Contents (Elt F) :=
  Host.scatterAdd scatter_S16384_S524288x1_S524288_n_0_0_1
    (broadcastInDim S16384 ![] bcast_S_S16384 (constant S_ .f32 0x00000000#32)) (dstTerm x1)
    (broadcastInDim S524288 ![] bcast_S_S524288 (constant S_ .f32 0x3F800000#32))

variable (m : (ℓ : Loc nD τ sig) → Buf (Elt F) ℓ)

/-! ## The arrays as the region finds them, and the blocks, at their literal types -/

abbrev warr (c : Dev nD) : Vec F S16384x1 .f32 := V m c main_v23
abbrev sarr (c : Dev nD) : Vec F S1x16384 .f32 := V m c main_v24
abbrev darr (c : Dev nD) : Vec F S1x16384 .f32 := V m c main_v25
abbrev wblk (c : Dev nD) (t : Fin cfg0.N) : Vec F S2048x1 .f32 := iblk m c 0 t
abbrev sblk (c : Dev nD) (t : Fin cfg0.N) : Vec F S1x1024 .f32 := iblk m c 1 t
abbrev dblk (c : Dev nD) (t : Fin cfg0.N) : Vec F S1x1024 .f32 := iblk m c 2 t

/-- The weights column is the host's weights, reshaped. -/
theorem warr_eq (c : Dev nD) :
    warr m c = shapeCast S16384x1 (wTerm (m ((c : Thread nD τ).loc main_arg0))) shapeCasts_S16384_S16384x1 := by
  show StableHlo.after hostOps0 (fun b => m (c, b)) (Proc.devRef .tc main_v23) = _
  after_results
  rfl

set_option maxHeartbeats 2000000 in
/-- The sums row is the host's column sums, reshaped. -/
theorem sarr_eq (c : Dev nD) :
    sarr m c = shapeCast S1x16384 (sTerm (m ((c : Thread nD τ).loc main_arg0)) (m ((c : Thread nD τ).loc main_arg1)))
      shapeCasts_S16384_S1x16384 := by
  show StableHlo.after hostOps0 (fun b => m (c, b)) (Proc.devRef .tc main_v24) = _
  after_results_simp <;> rfl

set_option maxHeartbeats 2000000 in
/-- The degrees row is the host's column degrees, reshaped. -/
theorem darr_eq (c : Dev nD) :
    darr m c = shapeCast S1x16384 (dTerm (m ((c : Thread nD τ).loc main_arg1))) shapeCasts_S16384_S1x16384 := by
  show StableHlo.after hostOps0 (fun b => m (c, b)) (Proc.devRef .tc main_v25) = _
  after_results_simp <;> rfl

/-- Which block each window is on at point `t`: decided over the grid. -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = 0 ∧ win0_2.index t (1 : Fin 2) = t.val % 16 :=
  (by decide +kernel : ∀ t : Fin grid0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = 0 ∧ win0_2.index t (1 : Fin 2) = t.val % 16)

/-- Row `r` of the weights block at point `t` is row `2048·(t/16) + r` of the column. -/
theorem wblk_apply (c : Dev nD) (t : Fin cfg0.N) (r : Fin 2048) (h : 2048 * (t.val / 16) + r.val < 16384) :
    wblk m c t (ix2 r (0 : Fin 1)) = warr m c (ix2 (⟨2048 * (t.val / 16) + r.val, h⟩ : Fin 16384) (0 : Fin 1)) := by
  obtain ⟨h0, h1, -⟩ := idx_facts t
  show ((cfg0.win 0).blk t).view.read (Elt F) (V m c (Pipeline.arrRef spec0 0)) _ = _
  rw [View.read_apply]
  show V m c main_v23 _ = V m c main_v23 _
  congr 1
  funext a
  apply Fin.ext
  match a with
  | ⟨0, _⟩ => show win0_0.index t 0 * 2048 + 1 * r.val = 2048 * (t.val / 16) + r.val; rw [h0]; omega
  | ⟨1, _⟩ => show win0_0.index t 1 * 1 + 1 * 0 = 0; rw [h1]

/-- Column `q` of the sums block at point `t` is column `1024·(t%16) + q` of the row. -/
theorem sblk_apply (c : Dev nD) (t : Fin cfg0.N) (q : Fin 1024) (h : 1024 * (t.val % 16) + q.val < 16384) :
    sblk m c t (ix2 (0 : Fin 1) q) = sarr m c (ix2 (0 : Fin 1) (⟨1024 * (t.val % 16) + q.val, h⟩ : Fin 16384)) := by
  obtain ⟨-, -, h0, h1, -⟩ := idx_facts t
  show ((cfg0.win 1).blk t).view.read (Elt F) (V m c (Pipeline.arrRef spec0 1)) _ = _
  rw [View.read_apply]
  show V m c main_v24 _ = V m c main_v24 _
  congr 1
  funext a
  apply Fin.ext
  match a with
  | ⟨0, _⟩ => show win0_1.index t 0 * 1 + 1 * 0 = 0; rw [h0]
  | ⟨1, _⟩ => show win0_1.index t 1 * 1024 + 1 * q.val = 1024 * (t.val % 16) + q.val; rw [h1]; omega

/-- Column `q` of the degrees block at point `t` is column `1024·(t%16) + q` of the row. -/
theorem dblk_apply (c : Dev nD) (t : Fin cfg0.N) (q : Fin 1024) (h : 1024 * (t.val % 16) + q.val < 16384) :
    dblk m c t (ix2 (0 : Fin 1) q) = darr m c (ix2 (0 : Fin 1) (⟨1024 * (t.val % 16) + q.val, h⟩ : Fin 16384)) := by
  obtain ⟨-, -, -, -, h0, h1⟩ := idx_facts t
  show ((cfg0.win 2).blk t).view.read (Elt F) (V m c (Pipeline.arrRef spec0 2)) _ = _
  rw [View.read_apply]
  show V m c main_v25 _ = V m c main_v25 _
  congr 1
  funext a
  apply Fin.ext
  match a with
  | ⟨0, _⟩ => show win0_2.index t 0 * 1 + 1 * 0 = 0; rw [h0]
  | ⟨1, _⟩ => show win0_2.index t 1 * 1024 + 1 * q.val = 1024 * (t.val % 16) + q.val; rw [h1]; omega

end Cert.KernelIdeal.Blocks

end
-- ==== Proof.Pieces.lean ====
/-
  What each control case of the kernel body leaves behind, as values.

  The body keeps a running total in a one-element scratch cell. At the first grid point it stores zero there,
  reads it back and stores "what was read plus this tile's sum"; at every later point it stores "what the point
  before left plus this tile's sum"; at the last point it also stores that total divided by the element count
  into the output block. Each store covers its whole one-element buffer through the zero-offset rectangle, so
  what a buffer holds afterwards is simply the last payload stored, with every load read as the contents it
  loaded. The lemmas hold at any float instance.
-/
import proofs.«172674_j88888643158594_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a rank-2 rectangle, as the constant function. -/
theorem hz : (![0, 0] : Fin 2 → Nat) = fun _ => 0 := funext fun a => by fin_cases a <;> rfl

/-- First point: the scratch cell ends at the tile's sum added to the zero just stored. -/
theorem scratch_first (c : Dev nD) (i : grid0.Coords) (a2 : Memref sig .tc .vmem S2048x1 .f32) (h2 : a2.IsWhole)
    (a3 : Memref sig .tc .vmem S1x1024 .f32) (h3 : a3.IsWhole) (a4 : Memref sig .tc .vmem S1x1024 .f32) (h4 : a4.IsWhole)
    (a5 : Memref sig .tc .vmem S1x1 .f32) (h5 : a5.IsWhole) (a6 : Memref sig .tc .vmem S1x1 .f32) (h6 : a6.IsWhole)
    (hc0 : cond0_0 i) (hc1 : ¬cond0_1 i)
    (x0 : Vec F S2048x1 .f32) (x1 : Vec F S1x1024 .f32) (x2 : Vec F S1x1024 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h6.read_unread,
    View.ld_unit_zero (S := S2048x1) hz, View.ld_unit_zero (S := S1x1024) hz, View.ld_unit_zero (S := S1x1) hz]

/-- A middle point: the scratch cell ends at the tile's sum added to what the point before left. -/
theorem scratch_middle (c : Dev nD) (i : grid0.Coords) (a2 : Memref sig .tc .vmem S2048x1 .f32) (h2 : a2.IsWhole)
    (a3 : Memref sig .tc .vmem S1x1024 .f32) (h3 : a3.IsWhole) (a4 : Memref sig .tc .vmem S1x1024 .f32) (h4 : a4.IsWhole)
    (a5 : Memref sig .tc .vmem S1x1 .f32) (h5 : a5.IsWhole) (a6 : Memref sig .tc .vmem S1x1 .f32) (h6 : a6.IsWhole)
    (hc0 : ¬cond0_0 i) (hc1 : ¬cond0_1 i)
    (x0 : Vec F S2048x1 .f32) (x1 : Vec F S1x1024 .f32) (x2 : Vec F S1x1024 .f32) (xs : Vec F S1x1 .f32) :
    sout0_B_0 c i a2 h2 a3 h3 a4 h4 a5 h5 a6 h6 hc0 hc1 x0 x1 x2 xs = k0_pay2 x0 x1 x2 xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero hz]
  simp only [View.readAt_eq_ld, h2.read_unread, h3.read_unread, h4.read_unread, h6.read_unread,
    View.ld_unit_zero (S := S2048x1) hz, View.ld_unit_zero (S := S1x1024) hz, View.ld_unit_zero (S := S1x1) hz]

/-- Last point: the scratch cell likewise, -/
theorem scratch_last (c : Dev nD) (i : grid0.Coords) (a2 : Memref sig .tc .vmem S2048x1 .f32) (h2 : a2.IsWhole)
    (a3 : Memref sig .tc .vmem S1x1024 .f32) (h3 : a3.IsWhole) (a4 : Memref sig .tc .vmem S1x1024 .f32) (h4 : a4.IsWhole)
    (a5 : Memref sig .tc .vmem S1x1 .f32) (h5 : a5.IsWhole) (a6 : Memref sig .tc .vmem S1x1 .f32) (h6 : a6.IsWhole)
    (hc0 : ¬cond0_0 i) (hc1 : cond0_1 i)
    (x0 : Vec F S2048x1 .f32) (x1 : Vec F S1x1024 .f32) (x2 : Vec F S1x1024 .f32) (xs : Vec F S1x1 .f32) :
    sout0_C_0 c i a2 h2 a3 h3 a4 h4 a5 h5 a6 h6 hc0 hc1 x0 x1 x2 xs = k0_pay2 x0 x1 x2 xs := by
  unfold sout0_C_0
  rw [View.read_writes_eq_canon _ _ _ (scover0_C_0 c i a2 h2 a3 h3 a4 h4 a5 h5 a6 h6 hc0 hc1 x0 x1 x2 xs)]
  unfold kernelRun0_C
  dsimp only
  sl_unfold_words
  rw [View.canon_unit_zero hz]
  simp only [View.readAt_eq_ld, h2.read_unread, h3.read_unread, h4.read_unread, h6.read_unread,
    View.ld_unit_zero (S := S2048x1) hz, View.ld_unit_zero (S := S1x1024) hz, View.ld_unit_zero (S := S1x1) hz]

/-- and the output block ends at the quotient of that final total. -/
theorem out_last (c : Dev nD) (i : grid0.Coords) (a2 : Memref sig .tc .vmem S2048x1 .f32) (h2 : a2.IsWhole)
    (a3 : Memref sig .tc .vmem S1x1024 .f32) (h3 : a3.IsWhole) (a4 : Memref sig .tc .vmem S1x1024 .f32) (h4 : a4.IsWhole)
    (a5 : Memref sig .tc .vmem S1x1 .f32) (h5 : a5.IsWhole) (a6 : Memref sig .tc .vmem S1x1 .f32) (h6 : a6.IsWhole)
    (hc0 : ¬cond0_0 i) (hc1 : cond0_1 i)
    (x0 : Vec F S2048x1 .f32) (x1 : Vec F S1x1024 .f32) (x2 : Vec F S1x1024 .f32) (xs : Vec F S1x1 .f32) :
    out0_C_3 c i a2 h2 a3 h3 a4 h4 a5 h5 a6 h6 hc0 hc1 x0 x1 x2 xs = k0_pay3 (k0_pay2 x0 x1 x2 xs) := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero hz, View.readCov_unit_zero (S := S1x1) _ hz]
  simp only [View.readAt_eq_ld, h2.read_unread, h3.read_unread, h4.read_unread, h6.read_unread,
    View.ld_unit_zero (S := S2048x1) hz, View.ld_unit_zero (S := S1x1024) hz, View.ld_unit_zero (S := S1x1) hz]

end Cert.KernelIdeal.Pieces

end
-- ==== Proof.PayIdeal.lean ====
/-
  The body's arithmetic over the extended reals.

  The accumulating payload adds to the running total the sum, over the 2048 × 1024 tile, of the entries
  `|c · (s_q - w_r · d_q)|` formed from the row-weight block (a column), the column-sum block and the
  column-degree block (rows): the lane reduction into a one-element shape is the sum over every element of
  the tile. The reset payload is zero, and the closing payload divides the total by the element count.
-/
import proofs.«172674_j88888643158594_1_alg».proof.Proof.Gen.KernelIdeal.Skeleton
import proofs.«172674_j88888643158594_1_alg».proof.Proof.Entry
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Pay

open Cert.KernelIdeal Cert.KernelIdeal.Gen Cert.Entry

/-- The lane reduction of a tile into one element, read back as a scalar, is the double sum over the tile's
    rows and columns. -/
theorem tile_total (T : FVec Ideal S2048x1024 .f32) :
    extractAt ![0, 0, 0] (shapeCast S1x1x1 (multiReduction .add [1, 2] S1
        (shapeCast S1x2048x1024 T shapeCasts_S2048x1024_S1x2048x1024) 0x00000000#32 reduces_S1x2048x1024_S1 (.inl rfl) rfl)
        shapeCasts_S1_S1x1x1) inpos_S1x1x1_p0_0_0
      = ∑ r : Fin 2048, ∑ q : Fin 1024, T (ix2 r q) :=
  (Ideal.multiReduction_add_total (shapeCast S1x2048x1024 T shapeCasts_S2048x1024_S1x2048x1024) 0x00000000#32
      reduces_S1x2048x1024_S1 (fun b => by fin_cases b; rfl) (.inl rfl) rfl _).trans
    ((Equiv.sum_comp (Shape.reshapeEquiv shapeCasts_S2048x1024_S1x2048x1024) T).trans (sum_idx2 T))

/-- One element of the tile the body forms from its three blocks. -/
theorem tile_entry (x0 : FVec Ideal S2048x1 .f32) (x1 x2 : FVec Ideal S1x1024 .f32) (r : Fin 2048) (q : Fin 1024) :
    absf (mulf (broadcast S2048x1024 (Scalar.ofBits .f32 0x3D4CCCCD#32))
        (subf (broadcastTo S2048x1024 x1 broadcasts_S1x1024_S2048x1024)
          (mulf (broadcastTo S2048x1024 x0 broadcasts_S2048x1_S2048x1024)
            (broadcastTo S2048x1024 x2 broadcasts_S1x1024_S2048x1024)))) (ix2 r q)
      = cell (x0 (ix2 r (0 : Fin 1))) (x1 (ix2 (0 : Fin 1) q)) (x2 (ix2 (0 : Fin 1) q)) := by
  show FloatOps.absf (F := Ideal) _ = _
  rw [Ideal.absf_def, mulf_apply, subf_apply, mulf_apply, broadcast_apply,
    broadcastTo_1b_ab_apply x1, broadcastTo_1b_ab_apply x2, broadcastTo_a1_ab_apply x0]
  rfl

/-- The accumulating payload: the running total plus the tile's sum. -/
theorem pay2_apply (x0 : Vec Ideal S2048x1 .f32) (x1 x2 : Vec Ideal S1x1024 .f32) (acc : Vec Ideal S1x1 .f32) (j : S1x1.Idx) :
    k0_pay2 (F := Ideal) x0 x1 x2 acc j
      = acc j + ∑ r : Fin 2048, ∑ q : Fin 1024, cell (x0 (ix2 r (0 : Fin 1))) (x1 (ix2 (0 : Fin 1) q)) (x2 (ix2 (0 : Fin 1) q)) := by
  unfold k0_pay2
  simp only [shapeCast_self]
  rw [addf_apply, broadcast_apply, tile_total]
  exact congrArg (acc j + ·) (Finset.sum_congr rfl fun r _ => Finset.sum_congr rfl fun q _ => tile_entry x0 x1 x2 r q)

/-- The reset payload is zero. -/
theorem pay1_apply (j : S1x1.Idx) : k0_pay1 (F := Ideal) j = 0 := by
  unfold k0_pay1
  rw [shapeCast_self, broadcast_apply]
  exact Ideal.ofBits_zero_f32

/-- The closing payload: the total over the element count. -/
theorem pay3_apply (v : Vec Ideal S1x1 .f32) (j : S1x1.Idx) : k0_pay3 (F := Ideal) v j = Ideal.div (v j) count := rfl

end Cert.KernelIdeal.Pay

end
-- ==== Proof.Chain.lean ====
/-
  The running total, point by point.

  After grid point `n` the scratch cell holds the sum of the tile sums of points `0 … n` (the zero stored at
  the first point is the unit of the sum), so after the last point it holds the sum of all 128 tile sums, and
  the output block holds that total divided by the element count. The proof is an induction on the point: the
  first point resets and adds, every later point adds to what the point before left.
-/
import proofs.«172674_j88888643158594_1_alg».proof.Proof.Gen.KernelIdeal.Frame
import proofs.«172674_j88888643158594_1_alg».proof.Proof.Entry
import proofs.«172674_j88888643158594_1_alg».proof.Proof.Pieces
import proofs.«172674_j88888643158594_1_alg».proof.Proof.PayIdeal
import proofs.«172674_j88888643158594_1_alg».proof.Proof.Blocks
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.Blocks Cert.KernelIdeal.Pay Cert.KernelIdeal.Pieces Cert.Entry

variable (m : (ℓ : Loc nD τ sig) → Buf (Elt Ideal) ℓ)

/-- The host's row weights, column sums and column degrees, from the launch memory. -/
abbrev Wv (c : Dev nD) : S16384.Idx → EReal := wTerm (F := Ideal) (m ((c : Thread nD τ).loc main_arg0))
abbrev Sv (c : Dev nD) : S16384.Idx → EReal :=
  sTerm (F := Ideal) (m ((c : Thread nD τ).loc main_arg0)) (m ((c : Thread nD τ).loc main_arg1))
abbrev Dv (c : Dev nD) : S16384.Idx → EReal := dTerm (F := Ideal) (m ((c : Thread nD τ).loc main_arg1))

/-- An `[a]` array cast to a column `[a, 1]` reads, at `(p, 0)`, the operand at `p`. -/
theorem cast_col {α : Type} {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- The tile the body forms from the blocks of point `t` sums to the tile sum of the host's three vectors. -/
theorem blocks_tileSum (c : Dev nD) (t : Fin cfg0.N) :
    ∑ r : Fin 2048, ∑ q : Fin 1024,
        cell (wblk m c t (ix2 r (0 : Fin 1))) (sblk m c t (ix2 (0 : Fin 1) q)) (dblk m c t (ix2 (0 : Fin 1) q))
      = tileSum (Wv m c) (Sv m c) (Dv m c) t.val := by
  have hN : t.val < 128 := lt_of_lt_of_eq t.isLt N_0
  unfold tileSum entry
  refine Finset.sum_congr rfl fun r _ => Finset.sum_congr rfl fun q _ => ?_
  have hr : 2048 * (t.val / 16) + r.val < 16384 := by have := r.isLt; omega
  have hq : 1024 * (t.val % 16) + q.val < 16384 := by have := q.isLt; omega
  rw [wblk_apply m c t r hr, sblk_apply m c t q hq, dblk_apply m c t q hq, warr_eq, sarr_eq, darr_eq,
    at1_of_lt _ _ hr, at1_of_lt _ _ hq, at1_of_lt _ _ hq, cast_col, shapeCast_a_1a_apply, shapeCast_a_1a_apply]

/-- After point `n` the scratch cell holds the sum of the tile sums of the points up to `n`. -/
theorem total_eq (c : Dev nD) : ∀ (n : ℕ) (h : n < cfg0.N),
    (outsAt0 m c n h).2 = fun _ => ∑ j ∈ Finset.range (n + 1), tileSum (Wv m c) (Sv m c) (Dv m c) j
  | 0, h => by
    rw [outsAt0_A m c ⟨0, h⟩ rfl (show ¬(0 : ℕ) % 128 = 127 by decide)]
    dsimp only
    rw [scratch_first]
    funext j
    refine (pay2_apply (wblk m c ⟨0, h⟩) (sblk m c ⟨0, h⟩) (dblk m c ⟨0, h⟩) _ j).trans ?_
    rw [pay1_apply, zero_add, Finset.sum_range_one]
    exact blocks_tileSum m c ⟨0, h⟩
  | n + 1, h => by
    have hN : n + 1 < 128 := lt_of_lt_of_eq h N_0
    have h0 : ¬(⟨n + 1, h⟩ : Fin cfg0.N).val % 128 = 0 := by dsimp only; omega
    have step : ∀ j : S1x1.Idx,
        k0_pay2 (F := Ideal) (wblk m c ⟨n + 1, h⟩) (sblk m c ⟨n + 1, h⟩) (dblk m c ⟨n + 1, h⟩)
            (outsAt0 m c n (Nat.lt_of_succ_lt h)).2 j
          = ∑ j ∈ Finset.range (n + 1 + 1), tileSum (Wv m c) (Sv m c) (Dv m c) j := fun j => by
      refine (pay2_apply (wblk m c ⟨n + 1, h⟩) (sblk m c ⟨n + 1, h⟩) (dblk m c ⟨n + 1, h⟩) _ j).trans ?_
      rw [blocks_tileSum m c ⟨n + 1, h⟩, Finset.sum_range_succ _ (n + 1), total_eq c n (Nat.lt_of_succ_lt h)]
    by_cases h1 : (⟨n + 1, h⟩ : Fin cfg0.N).val % 128 = 127
    · rw [outsAt0_C m c ⟨n + 1, h⟩ h0 h1]
      dsimp only
      rw [scratch_last]
      exact funext step
    · rw [outsAt0_B m c ⟨n + 1, h⟩ h0 h1]
      dsimp only
      rw [scratch_middle]
      exact funext step

/-- After the last point the output block holds the sum of all 128 tile sums over the element count. -/
theorem out_eq (c : Dev nD) (h : 127 < cfg0.N) :
    (outsAt0 m c 127 h).1
      = fun _ => Ideal.div (∑ j ∈ Finset.range 128, tileSum (Wv m c) (Sv m c) (Dv m c) j) count := by
  have e1 : (outsAt0 m c 127 h).1 = k0_pay3 (F := Ideal) (outsAt0 m c 127 h).2 := by
    rw [outsAt0_C m c ⟨127, h⟩ (show ¬(127 : ℕ) % 128 = 0 by decide) (show (127 : ℕ) % 128 = 127 by decide)]
    dsimp only
    rw [out_last, scratch_last]
  rw [e1, total_eq m c 127 h]
  rfl

end Cert.KernelIdeal.Chain

end
-- ==== Proof.Tiling.lean ====
/-
  A sum over a 16384 × 16384 index square, regrouped by tiles.

  The square is cut into 8 × 16 tiles of 2048 rows by 1024 columns, and the tiles are numbered row-major:
  tile `n` has row block `n / 16` and column block `n % 16`. In any additive commutative monoid the sum
  over the square is the sum, over the 128 tiles, of each tile's own sum. Nothing but commutativity and
  associativity of `+` is used, so the law holds on the extended reals without any finiteness.
-/
import Idealize.ShloMosaic.Lib.ValueIdx
import Mathlib.Algebra.BigOperators.Fin

open scoped BigOperators

namespace Cert.Tiling

/-- A sum over the positions below `m * n` is the double sum over `m` runs of `n` consecutive positions:
    position `n * i + r` is the `r`-th of run `i`. -/
theorem sum_fin_mul {M : Type*} [AddCommMonoid M] (m n : ℕ) (f : ℕ → M) :
    ∑ a : Fin (m * n), f a.val = ∑ i : Fin m, ∑ r : Fin n, f (n * i.val + r.val) := by
  rw [← Equiv.sum_comp finProdFinEquiv, Fintype.sum_prod_type]
  refine Finset.sum_congr rfl fun i _ => Finset.sum_congr rfl fun r _ => ?_
  exact congrArg f (by rw [finProdFinEquiv_apply_val, add_comm])

/-- The sum of `g` over the 16384 × 16384 square is the sum over the 128 tiles, in row-major tile order, of
    the sums over each 2048 × 1024 tile. -/
theorem sum_tiles {M : Type*} [AddCommMonoid M] (g : ℕ → ℕ → M) :
    ∑ n ∈ Finset.range 128, ∑ r : Fin 2048, ∑ q : Fin 1024, g (2048 * (n / 16) + r.val) (1024 * (n % 16) + q.val)
      = ∑ a : Fin 16384, ∑ b : Fin 16384, g a.val b.val := by
  have hrows : ∀ f : ℕ → M, ∑ a : Fin 16384, f a.val = ∑ i : Fin 8, ∑ r : Fin 2048, f (2048 * i.val + r.val) :=
    fun f => sum_fin_mul 8 2048 f
  have hcols : ∀ f : ℕ → M, ∑ b : Fin 16384, f b.val = ∑ k : Fin 16, ∑ q : Fin 1024, f (1024 * k.val + q.val) :=
    fun f => sum_fin_mul 16 1024 f
  have hpts : ∀ f : ℕ → M, ∑ n ∈ Finset.range 128, f n = ∑ i : Fin 8, ∑ k : Fin 16, f (16 * i.val + k.val) :=
    fun f => by rw [← Fin.sum_univ_eq_sum_range f 128]; exact sum_fin_mul 8 16 f
  rw [hpts, hrows fun a => ∑ b : Fin 16384, g a b.val]
  refine Finset.sum_congr rfl fun i _ => ?_
  rw [Finset.sum_comm]
  refine Finset.sum_congr rfl fun r _ => ?_
  rw [hcols fun b => g (2048 * i.val + r.val) b]
  refine Finset.sum_congr rfl fun k _ => Finset.sum_congr rfl fun q _ => ?_
  have hk : k.val < 16 := k.isLt
  have hd : (16 * i.val + k.val) / 16 = i.val := by omega
  have hm : (16 * i.val + k.val) % 16 = k.val := by omega
  rw [hd, hm]

end Cert.Tiling
-- ==== Proof.KValue.lean ====
/-
  The kernel program's result.

  The output window is written back once, after the last grid point, and its one block is the whole
  `[1, 1]` result array; so the array ends at the total of the 128 tile sums over the element count. The two
  host lines after the region reshape it to a scalar and take its absolute value. Regrouping the tile sums
  into the sum over the whole square (a law of commutative monoids) makes that the mean absolute entry of the
  host's three vectors.
-/
import proofs.«172674_j88888643158594_1_alg».proof.Proof.Gen.KernelIdeal.Frame
import proofs.«172674_j88888643158594_1_alg».proof.Proof.Entry
import proofs.«172674_j88888643158594_1_alg».proof.Proof.Tiling
import proofs.«172674_j88888643158594_1_alg».proof.Proof.Blocks
import proofs.«172674_j88888643158594_1_alg».proof.Proof.Chain
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Blocks Cert.KernelIdeal.Chain Cert.Entry

variable (m : (ℓ : Loc nD τ sig) → Buf (Elt Ideal) ℓ) (ρ : Dev nD → PrngReg)

/-- The last grid point. -/
abbrev tLast : Fin cfg0.N := ⟨127, by decide⟩

/-- The total of the tile sums over the element count. -/
abbrev quotient (c : Dev nD) : EReal :=
  Ideal.div (∑ j ∈ Finset.range 128, tileSum (Wv m c) (Sv m c) (Dv m c) j) count

/-- The result array after the region: the quotient at its one index. -/
abbrev G (c : Dev nD) : Buf (Elt Ideal) ((c : Thread nD τ).loc main_v26) := fun _ => quotient m c

/-- The one write-back, at the last point, writes the quotient. -/
theorem flushed_eq (c : Dev nD) (t : Fin cfg0.N) (hf : (cfg0.win 3).flush t = true) :
    (dats m 0 c).flushed 3 t = ((cfg0.win 3).blk t).view.read (Elt Ideal) (G m c) := by
  have hN : cfg0.N = 128 := N_0
  have h127 : t.val = 127 := by have := (flush0_3 t).mp hf; have := t.isLt; omega
  obtain rfl : t = tLast := Fin.ext h127
  show (cfg0.win 3).cut (grid0.coords tLast) ((dats m 0 c).after 3 tLast) = _
  rw [after0_3, out_eq]
  rfl

/-- So the result array ends at the quotient. -/
theorem final (c : Dev nD) : (dats m 0 c).arrAt 3 cfg0.N = G m c :=
  (dats m 0 c).arrAt_eq_of_cover 3 (G m c) (flushed_eq m c) fun i =>
    ⟨tLast, (flush0_3 tLast).mpr rfl, by
      show i ∈ ((View.whole main_v26).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 1 from by decide +kernel]
        omega⟩

/-- The total of the 128 tile sums is the sum over the whole square. -/
theorem tiles_total (W S D : S16384.Idx → EReal) :
    ∑ j ∈ Finset.range 128, tileSum W S D j = ∑ a : Fin 16384, ∑ b : Fin 16384, entry W S D a.val b.val :=
  Cert.Tiling.sum_tiles (entry W S D)

/-- The program's result: the host lines after the region leave the mean absolute entry. -/
theorem tail_eq (c : Dev nD) :
    Pipeline.afterTail₀ cfgs (dats m) 0 (V0 m) [hostOps1] c main_v28
      = fun _ => meanAbs (Wv m c) (Sv m c) (Dv m c) := by
  unfold Pipeline.afterTail₀
  show StableHlo.after hostOps1 _ (Proc.devRef .tc main_v28) = _
  after_results
  rw [(Pipeline.withArrays_arr spec0 launch0.win.arr_inj c _ _ 3).trans (final m c)]
  funext i
  unfold meanAbs
  rw [← tiles_total]
  rfl

/-- The run, read: the result at the mean absolute entry, the arguments unchanged. -/
theorem run : θ_run defs (onTc (τ := τ) (main (F := Ideal))) ⟨m, fun _ => 0, ρ⟩ fun r => ∀ c : Dev nD,
      r.2.mem ((c.tc : Thread nD τ).loc main_v28) = (fun _ => meanAbs (Wv m c) (Sv m c) (Dv m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v28 (Pipeline.mem_restRefs_of main_v28 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefSide.lean ====
/-
  The reference's result as the mean absolute entry.

  The reference broadcasts the row weights down the columns and the column sums and degrees across the rows,
  forms every entry `|c · (s_b - w_a · d_b)|` of the 16384 × 16384 matrix, sums them all from zero, divides by
  the element count and takes the absolute value. Read index by index through the generated stage lemmas, with
  the three host vectors kept as named stages, that is `meanAbs` of them.
-/
import proofs.«172674_j88888643158594_1_alg».proof.Proof.Gen.ReferenceIdeal.Run
import proofs.«172674_j88888643158594_1_alg».proof.Proof.Gen.ReferenceIdeal.Read
import proofs.«172674_j88888643158594_1_alg».proof.Proof.Entry
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Entry

/-- One entry of the reference's matrix of absolute values. -/
theorem entry_eq (x0 : (⟨S16384x2, .f32⟩ : BufTy).Contents (Elt Ideal)) (x1 : (⟨S2x524288, .i32⟩ : BufTy).Contents (Elt Ideal))
    (a b : Fin 16384) :
    val_main_v33 (F := Ideal) x0 x1 (ix2 a b)
      = entry (val_main_v4 (F := Ideal) x0) (val_main_v18 (F := Ideal) x0 x1) (val_main_v22 (F := Ideal) x1) a.val b.val := by
  have es : idx_main_v23 (idx_main_v29 (ix2 a b)) = ix1 b := funext fun d => match d with | ⟨0, _⟩ => rfl
  have ew : idx_main_v24 (idx_main_v26 (ix2 a b)) = ix1 a := funext fun d => match d with | ⟨0, _⟩ => rfl
  have ed : idx_main_v25 (idx_main_v27 (ix2 a b)) = ix1 b := funext fun d => match d with | ⟨0, _⟩ => rfl
  rw [val_main_v33_apply, val_main_v32_apply, val_main_v31_apply, val_main_cst_3_apply, val_main_v30_apply,
    val_main_v29_apply, val_main_v23_apply, val_main_v28_apply, val_main_v26_apply, val_main_v24_apply,
    val_main_v27_apply, val_main_v25_apply, es, ew, ed]
  unfold entry cell
  rw [at1_of_lt _ _ a.isLt, at1_of_lt _ _ b.isLt, at1_of_lt _ _ b.isLt, Ideal.hostAbsf_def, Ideal.absf_def,
    Ideal.mulf_def, Ideal.subf_def, Ideal.mulf_def, Ideal.ofBits_def]

/-- The reference's result is the mean absolute entry of its three host vectors. -/
theorem result_eq (x0 : (⟨S16384x2, .f32⟩ : BufTy).Contents (Elt Ideal)) (x1 : (⟨S2x524288, .i32⟩ : BufTy).Contents (Elt Ideal)) :
    val_main_v36 (F := Ideal) x0 x1
      = fun _ => meanAbs (val_main_v4 (F := Ideal) x0) (val_main_v18 (F := Ideal) x0 x1) (val_main_v22 (F := Ideal) x1) := by
  funext i
  rw [val_main_v36_apply, val_main_v35_apply, val_main_v34_apply, val_main_cst_4_apply, val_main_cst_5_apply,
    Ideal.hostAbsf_def, Ideal.absf_def, Ideal.hostDivf_def]
  simp only [Ideal.ofBits_def]
  rw [Ideal.ofBits_zero_f32, zero_add, sum_idx2]
  unfold meanAbs
  simp only [entry_eq]

end Cert.ReferenceIdeal.RefValue

end
-- ==== Proof.lean ====
/-
  The certificate: a tiled mean of absolute values against the whole-matrix mean.

  Both programs compute, from node features `V` and an edge list, the row weights `w = V[:,0] + V[:,1]`, the
  column sums `s` (the weights of the edges' sources, added up by destination) and the column degrees `d`
  (ones added up by destination), by the same host operations, and return
      | (1 / 2^28) · Σ_{a, b < 16384} | c · (s_b - w_a · d_b) | |        with c the word nearest 0.05.
  The reference materialises the 16384 × 16384 matrix and sums it at once. The kernel walks an 8 × 16 grid of
  2048 × 1024 tiles, forms each tile from a block of `w` and blocks of `s` and `d`, sums it, and adds the sum
  into a one-element accumulator it zeroes at the first point; at the last point it divides by 2^28.

  Over the extended reals the two agree because addition is commutative and associative there: the sum over
  the square is the sum over the tiles of the tiles' sums (`Cert.Tiling.sum_tiles`), the zero the accumulator
  starts from is the unit, and both divide by the same word. No finiteness of the inputs is needed for that,
  so the precondition is never opened. The two host prefixes are the same operations and so the same terms.

  Modules: `Tiling` (the regrouping law), `Entry` (one entry, the tile sum, the mean), `Pieces` (what each
  control case of the body stores), `PayIdeal` (the body's arithmetic as sums), `Blocks` (the host's three
  vectors and the windows' blocks), `Chain` (the accumulator point by point, by induction), `KValue` (the
  result array, the lines after the region, the run), `RefSide` (the reference's result).
-/
import proofs.«172674_j88888643158594_1_alg».proof.Defs
import proofs.«172674_j88888643158594_1_alg».proof.Proof.Gen.Kernel
import proofs.«172674_j88888643158594_1_alg».proof.Proof.Gen.Kernel.Skeleton
import proofs.«172674_j88888643158594_1_alg».proof.Proof.Gen.Kernel.Launch
import proofs.«172674_j88888643158594_1_alg».proof.Proof.Gen.Kernel.Points
import proofs.«172674_j88888643158594_1_alg».proof.Proof.Gen.Kernel.Frame
import proofs.«172674_j88888643158594_1_alg».proof.Proof.Gen.KernelIdeal
import proofs.«172674_j88888643158594_1_alg».proof.Proof.Gen.KernelIdeal.Skeleton
import proofs.«172674_j88888643158594_1_alg».proof.Proof.Gen.KernelIdeal.Launch
import proofs.«172674_j88888643158594_1_alg».proof.Proof.Gen.KernelIdeal.Points
import proofs.«172674_j88888643158594_1_alg».proof.Proof.Gen.KernelIdeal.Frame
import proofs.«172674_j88888643158594_1_alg».proof.Proof.Gen.ReferenceIdeal
import proofs.«172674_j88888643158594_1_alg».proof.Proof.Gen.ReferenceIdeal.Run
import proofs.«172674_j88888643158594_1_alg».proof.Proof.Gen.ReferenceIdeal.Read
import proofs.«172674_j88888643158594_1_alg».proof.Proof.Gen.Pre_finite_inputs
import proofs.«172674_j88888643158594_1_alg».proof.Proof.Entry
import proofs.«172674_j88888643158594_1_alg».proof.Proof.Blocks
import proofs.«172674_j88888643158594_1_alg».proof.Proof.Chain
import proofs.«172674_j88888643158594_1_alg».proof.Proof.KValue
import proofs.«172674_j88888643158594_1_alg».proof.Proof.RefSide
import Idealize.ShloMosaic.Adequacy
import Idealize.ShloMosaic.Init

noncomputable section

namespace Cert.Proof

open Idealize.ShloMosaic Idealize.SL.Sem

/-! ## The two host prefixes are one computation -/

/-- The row weights of the two programs are the same function of the first argument. -/
theorem weights_eq (x0 : (⟨Cert.KernelIdeal.S16384x2, .f32⟩ : BufTy).Contents (Elt Ideal)) :
    Cert.ReferenceIdeal.Read.val_main_v4 (F := Ideal) x0 = Cert.KernelIdeal.Blocks.wTerm (F := Ideal) x0 := rfl

/-- The column sums likewise, of both arguments. -/
theorem sums_eq (x0 : (⟨Cert.KernelIdeal.S16384x2, .f32⟩ : BufTy).Contents (Elt Ideal))
    (x1 : (⟨Cert.KernelIdeal.S2x524288, .i32⟩ : BufTy).Contents (Elt Ideal)) :
    Cert.ReferenceIdeal.Read.val_main_v18 (F := Ideal) x0 x1 = Cert.KernelIdeal.Blocks.sTerm (F := Ideal) x0 x1 := rfl

/-- The column degrees likewise, of the second argument. -/
theorem degrees_eq (x1 : (⟨Cert.KernelIdeal.S2x524288, .i32⟩ : BufTy).Contents (Elt Ideal)) :
    Cert.ReferenceIdeal.Read.val_main_v22 (F := Ideal) x1 = Cert.KernelIdeal.Blocks.dTerm (F := Ideal) x1 := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the mean absolute entry of the same three host vectors. -/
theorem algebraic : Cert.algebraic_KernelIdeal_ReferenceIdeal := by
  intro m ρ m' ρ' _ hagree
  refine ⟨fun c => fun _ => Cert.Entry.meanAbs (Cert.KernelIdeal.Chain.Wv m c) (Cert.KernelIdeal.Chain.Sv m c)
    (Cert.KernelIdeal.Chain.Dv m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq, (hagree c).1, (hagree c).2,
    weights_eq, sums_eq, degrees_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
